-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S11008x4096 : Shape := ⟨2, ![11008, 4096]⟩
abbrev S4096x11008 : Shape := ⟨2, ![4096, 11008]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  main_v18

def fn {F : FTy → Type} [FloatOps F] (main_arg0 : FVec F S2x2048x4096 .f32) (main_arg1 : FVec F S11008x4096 .f32) (main_arg2 : FVec F S11008x4096 .f32) (main_arg3 : FVec F S4096x11008 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_v13 main_v16
-- ==== Kernel.lean ====
abbrev S2x2048x4096 : Shape := ⟨3, ![2, 2048, 4096]⟩
abbrev S11008x4096 : Shape := ⟨2, ![11008, 4096]⟩
abbrev S4096x11008 : Shape := ⟨2, ![4096, 11008]⟩
abbrev S4096x4096 : Shape := ⟨2, ![4096, 4096]⟩
abbrev S_ : Shape := ⟨0, ![]⟩
abbrev S4096x11264 : Shape := ⟨2, ![4096, 11264]⟩
abbrev S11264x4096 : Shape := ⟨2, ![11264, 4096]⟩
abbrev S256x4096 : Shape := ⟨2, ![256, 4096]⟩
abbrev S4096x512 : Shape := ⟨2, ![4096, 512]⟩
abbrev S512x4096 : Shape := ⟨2, ![512, 4096]⟩
abbrev S256x512 : Shape := ⟨2, ![256, 512]⟩

abbrev nBuf : Space → Nat
  | .hbm => 23
  | .vmem => 11
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S4096x4096, .f32⟩
  | .hbm, ⟨5, _⟩ => ⟨S4096x4096, .bf16⟩
  | .hbm, ⟨6, _⟩ => ⟨S4096x11008, .f32⟩
  | .hbm, ⟨7, _⟩ => ⟨S4096x11008, .bf16⟩
  | .hbm, ⟨8, _⟩ => ⟨S4096x11008, .f32⟩
  | .hbm, ⟨9, _⟩ => ⟨S4096x11008, .bf16⟩
  | .hbm, ⟨10, _⟩ => ⟨S11008x4096, .f32⟩
  | .hbm, ⟨11, _⟩ => ⟨S11008x4096, .bf16⟩
  | .hbm, ⟨12, _⟩ => ⟨S_, .i32⟩
  | .hbm, ⟨13, _⟩ => ⟨S_, .bf16⟩
  | .hbm, ⟨14, _⟩ => ⟨S4096x11264, .bf16⟩
  | .hbm, ⟨15, _⟩ => ⟨S_, .i32⟩
  | .hbm, ⟨16, _⟩ => ⟨S_, .bf16⟩
  | .hbm, ⟨17, _⟩ => ⟨S4096x11264, .bf16⟩
  | .hbm, ⟨18, _⟩ => ⟨S_, .i32⟩
  | .hbm, ⟨19, _⟩ => ⟨S_, .bf16⟩
  | .hbm, ⟨20, _⟩ => ⟨S11264x4096, .bf16⟩
  | .hbm, ⟨21, _⟩ => ⟨S4096x4096, .f32⟩
  | .hbm, ⟨22, _⟩ => ⟨S2x2048x4096, .f32⟩
  | .local _ .vmem, ⟨0, _⟩ => ⟨S256x4096, .bf16⟩
  | .local _ .vmem, ⟨1, _⟩ => ⟨S256x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S512x4096, .bf16⟩
  | .local _ .vmem, ⟨7, _⟩ => ⟨S512x4096, .bf16⟩
  | .local _ .vmem, ⟨8, _⟩ => ⟨S256x4096, .f32⟩
  | .local _ .vmem, ⟨9, _⟩ => ⟨S256x4096, .f32⟩
  | .local _ .vmem, ⟨10, _⟩ => ⟨S256x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_c_1 : Ref sig .tc := ⟨.hbm, 18, rfl⟩
abbrev main_call2_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 22], ![false, false]⟩

def k0_cond2 (i : grid0.Coords) : BitVec 1 :=
  let arg1 : BitVec 32 := BitVec.ofNat 32 (i 1).val
  let c21_i32 : BitVec 32 := 21#32
  let v23 : BitVec 1 := Scalar.cmpi .eq arg1 c21_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2x2048x4096_S4096x4096 : S2x2048x4096.ShapeCasts S4096x4096
  bitsLt_bf16_f32 : FTy.bits .bf16 < FTy.bits .f32
  transposes_S11008x4096_S4096x11008_1_0 : S11008x4096.Transposes [1, 0] S4096x11008
  transposes_S4096x11008_S11008x4096_1_0 : S4096x11008.Transposes [1, 0] S11008x4096
  pads_S4096x11008_S4096x11264_000_02560 : S4096x11008.Pads (![0, 0] : Fin 2 → Nat) ![0, 256] ![0, 0] S4096x11264
  h_S_ : 0 < S_.numel
  pads_S11008x4096_S11264x4096_02560_000 : S11008x4096.Pads (![0, 0] : Fin 2 → Nat) ![256, 0] ![0, 0] S11264x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  shapeCasts_S4096x4096_S2x2048x4096 : S4096x4096.ShapeCasts S2x2048x4096
  dot_S256x4096_S4096x512_S256x512_1_0_0_1_n_n_wf : DotDims.WF S256x4096 S4096x512 S256x512 [1] [0] [0] [1] [] []
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .bf16 = 32 ∨ (Rect.block (s := S4096x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x11264.size a
  hwx0_1 : ∀ i : grid0.Coords, EltTy.bits .bf16 = 32 ∨ (Rect.block (s := S4096x11264) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x11264.size a
  hwx0_2 : ∀ i : grid0.Coords, EltTy.bits .bf16 = 32 ∨ (Rect.block (s := S4096x11264) S4096x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S11264x4096.size a
  hwx0_3 : ∀ i : grid0.Coords, EltTy.bits .bf16 = 32 ∨ (Rect.block (s := S11264x4096) S512x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .f32 = 32 ∨ (Rect.block (s := S4096x4096) S256x4096.size (cc0_transform_4 i) (hinb0_4 i)).WholeWords (EltTy.packing .f32)

variable [Facts₀]

def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_v1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S4096x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S512x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S11008x4096 : Shape := ⟨2, ![11008, 4096]⟩
abbrev S4096x11008 : Shape := ⟨2, ![4096, 11008]⟩
abbrev S2x2048x11008 : Shape := ⟨3, ![2, 2048, 11008]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S2x2048x11008, .f32⟩
  | .hbm, ⟨5, _⟩ => ⟨S2x2048x11008, .f32⟩
  | .hbm, ⟨6, _⟩ => ⟨S2x2048x11008, .f32⟩
  | .hbm, ⟨7, _⟩ => ⟨S2x2048x11008, .f32⟩
  | .hbm, ⟨8, _⟩ => ⟨S_, .f32⟩
  | .hbm, ⟨9, _⟩ => ⟨S2x2048x11008, .f32⟩
  | .hbm, ⟨10, _⟩ => ⟨S2x2048x11008, .f32⟩
  | .hbm, ⟨11, _⟩ => ⟨S_, .f32⟩
  | .hbm, ⟨12, _⟩ => ⟨S2x2048x11008, .f32⟩
  | .hbm, ⟨13, _⟩ => ⟨S2x2048x11008, .f32⟩
  | .hbm, ⟨14, _⟩ => ⟨S2x2048x11008, .f32⟩
  | .hbm, ⟨15, _⟩ => ⟨S2x2048x11008, .f32⟩
  | .hbm, ⟨16, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S2x2048x11008 : S_.BroadcastsInDim S2x2048x11008 (![] : Fin 0 → Fin S2x2048x11008.rank)
  dot_S2x2048x4096_S11008x4096_S2x2048x11008_2_1_01_0_n_n_wf : DotDims.WF S2x2048x4096 S11008x4096 S2x2048x11008 [2] [1] [0, 1] [0] [] []
  dot_S2x2048x11008_S4096x11008_S2x2048x4096_2_1_01_0_n_n_wf : DotDims.WF S2x2048x11008 S4096x11008 S2x2048x4096 [2] [1] [0, 1] [0] [] []

variable [Facts₀]

def dot_S2x2048x4096_S11008x4096_S2x2048x11008_2_1_01_0_n_n : DotDims S2x2048x4096 S11008x4096 S2x2048x11008 where
  lhsContracting := [2]
  rhsContracting := [1]
  lhsNonContracting := [0, 1]
  rhsNonContracting := [0]
  lhsBatch := []
  rhsBatch := []
  wf := dot_S2x2048x4096_S11008x4096_S2x2048x11008_2_1_01_0_n_n_wf
def dot_S2x2048x11008_S4096x11008_S2x2048x4096_2_1_01_0_n_n : DotDims S2x2048x11008 S4096x11008 S2x2048x4096 where
  lhsContracting := [2]
  rhsContracting := [1]
  lhsNonContracting := [0, 1]
  rhsNonContracting := [0]
  lhsBatch := []
  rhsBatch := []
  wf := dot_S2x2048x11008_S4096x11008_S2x2048x4096_2_1_01_0_n_n_wf

class Facts : Prop extends Facts₀ where

variable [Facts]
-- ==== Proof.Spec.lean ====
/-
  The SwiGLU feed-forward block as one function of its four argument arrays, on the extended reals.

  For a token (b, s) and an output column h,
    out (b, s, h) = Σ_i ( (g i · σ(g i)) · u i ) · Wd (h, i),
    g i = Σ_k x (b, s, k) · Wg (i, k),   u i = Σ_k x (b, s, k) · Wu (i, k),   σ(z) = 1 / (1 + e^(−z)),
  i over the 11008 intermediate features, k over the 4096 model features.

  A blocked evaluation walks the features 512 at a time over a range padded to 11264 = 22 · 512, the weights
  continued by zero past feature 11008. With the features indexed by natural numbers and the weights continued
  by zero, each block contributes the terms of one stretch of 512 features, the stretches add up by
  `Finset.sum_range_add`, and a feature past 11008 contributes (g·σ(g)·u) · 0 = 0 whatever g and u are: no
  finiteness of the inputs is used anywhere, only that a sum may be cut into stretches.
-/
import Idealize.ShloMosaic.PureOps.Ideal
import Idealize.ShloMosaic.PureOps.Ideal.Laws
import Idealize.ShloMosaic.Lib.ValueIdx
import Mathlib.Algebra.BigOperators.Fin

noncomputable section

namespace Cert.Swiglu

open Idealize.ShloMosaic Idealize.ShloMosaic.ValueIdx

/-- The activations' shape [2, 2048, 4096], the up/gate weights' [11008, 4096], the down weight's [4096, 11008]. -/
abbrev SX : Shape := ⟨3, ![2, 2048, 4096]⟩
abbrev SW : Shape := ⟨2, ![11008, 4096]⟩
abbrev SD : Shape := ⟨2, ![4096, 11008]⟩

/-- The gated hidden value from a gate pre-activation `g` and an up pre-activation `u`: (g · σ(g)) · u. -/
def gated (g u : EReal) : EReal := (g * Ideal.logistic g) * u

/-- THE FUNCTION both programs compute: at (b, s, h), the sum over the 11008 features of the gated hidden value
    times the down weight. -/
def swiglu (x : SX.Idx → EReal) (wg wu : SW.Idx → EReal) (wd : SD.Idx → EReal) : SX.Idx → EReal := fun j =>
  ∑ i : Fin 11008,
    gated (∑ k : Fin 4096, x (ix3 (j 0) (j 1) k) * wg (ix2 i k)) (∑ k : Fin 4096, x (ix3 (j 0) (j 1) k) * wu (ix2 i k))
      * wd (ix2 (j 2) i)

/-! ## The features indexed by natural numbers, the weights continued by zero -/

/-- An up or gate weight's column `i` read at model feature `k`, zero from feature 11008 on. -/
def colW (w : SW.Idx → EReal) (k : Fin 4096) (i : ℕ) : EReal := if hi : i < 11008 then w (ix2 ⟨i, hi⟩ k) else 0

/-- The down weight's entry for feature `i` and output column `h`, zero from feature 11008 on. -/
def rowD (wd : SD.Idx → EReal) (i : ℕ) (h : Fin 4096) : EReal := if hi : i < 11008 then wd (ix2 h ⟨i, hi⟩) else 0

/-- Feature `i`'s term of the sum at (b, s, h). -/
def term (x : SX.Idx → EReal) (wg wu : SW.Idx → EReal) (wd : SD.Idx → EReal) (b : Fin 2) (s : Fin 2048) (h : Fin 4096)
    (i : ℕ) : EReal :=
  gated (∑ k : Fin 4096, x (ix3 b s k) * colW wg k i) (∑ k : Fin 4096, x (ix3 b s k) * colW wu k i) * rowD wd i h

theorem term_of_lt (x : SX.Idx → EReal) (wg wu : SW.Idx → EReal) (wd : SD.Idx → EReal) (b : Fin 2) (s : Fin 2048)
    (h : Fin 4096) (i : ℕ) (hi : i < 11008) :
    term x wg wu wd b s h i
      = gated (∑ k : Fin 4096, x (ix3 b s k) * wg (ix2 ⟨i, hi⟩ k)) (∑ k : Fin 4096, x (ix3 b s k) * wu (ix2 ⟨i, hi⟩ k))
          * wd (ix2 h ⟨i, hi⟩) := by
  unfold term colW rowD
  simp only [dif_pos hi]

/-- A feature past the last one contributes nothing: its down weight is the zero it was continued by. -/
theorem term_of_ge (x : SX.Idx → EReal) (wg wu : SW.Idx → EReal) (wd : SD.Idx → EReal) (b : Fin 2) (s : Fin 2048)
    (h : Fin 4096) (i : ℕ) (hi : 11008 ≤ i) : term x wg wu wd b s h i = 0 := by
  unfold term rowD
  rw [dif_neg (by omega), mul_zero]

/-- The function as the sum over the padded range of 11264 features. -/
theorem swiglu_eq_range (x : SX.Idx → EReal) (wg wu : SW.Idx → EReal) (wd : SD.Idx → EReal) (b : Fin 2) (s : Fin 2048)
    (h : Fin 4096) :
    swiglu x wg wu wd (ix3 b s h) = ∑ i ∈ Finset.range 11264, term x wg wu wd b s h i := by
  rw [show (11264 : ℕ) = 11008 + 256 from rfl, Finset.sum_range_add,
    Finset.sum_eq_zero (s := Finset.range 256) (fun q _ => term_of_ge x wg wu wd b s h (11008 + q) (by omega)), add_zero,
    Finset.sum_range]
  exact Finset.sum_congr rfl fun i _ => (term_of_lt x wg wu wd b s h i.val i.isLt).symm

/-! ## One block of 512 features -/

/-- What one grid step adds at row `p`, column `h` of its 256 × 4096 tile: from a 256 × 4096 block `xb` of
    activations, 4096 × 512 blocks `gb`, `ub` of the transposed gate and up weights and a 512 × 4096 block `db` of the
    transposed down weight, the sum over the block's 512 features of the gated hidden value times the down entry. -/
def stepTerm (xb : (⟨2, ![256, 4096]⟩ : Shape).Idx → EReal) (gb ub : (⟨2, ![4096, 512]⟩ : Shape).Idx → EReal)
    (db : (⟨2, ![512, 4096]⟩ : Shape).Idx → EReal) (p : Fin 256) (h : Fin 4096) : EReal :=
  ∑ q : Fin 512,
    gated (∑ k : Fin 4096, xb (ix2 p k) * gb (ix2 k q)) (∑ k : Fin 4096, xb (ix2 p k) * ub (ix2 k q)) * db (ix2 q h)

/-- When the blocks are the activations' row (b, s) and features 512·j … 512·j + 511 of the continued weights, the
    step adds that stretch of the terms. -/
theorem stepTerm_eq_range (x : SX.Idx → EReal) (wg wu : SW.Idx → EReal) (wd : SD.Idx → EReal) (b : Fin 2) (s : Fin 2048)
    (j : ℕ) (xb : (⟨2, ![256, 4096]⟩ : Shape).Idx → EReal) (gb ub : (⟨2, ![4096, 512]⟩ : Shape).Idx → EReal)
    (db : (⟨2, ![512, 4096]⟩ : Shape).Idx → EReal) (p : Fin 256) (h : Fin 4096)
    (hx : ∀ k : Fin 4096, xb (ix2 p k) = x (ix3 b s k))
    (hg : ∀ (k : Fin 4096) (q : Fin 512), gb (ix2 k q) = colW wg k (512 * j + q.val))
    (hu : ∀ (k : Fin 4096) (q : Fin 512), ub (ix2 k q) = colW wu k (512 * j + q.val))
    (hd : ∀ q : Fin 512, db (ix2 q h) = rowD wd (512 * j + q.val) h) :
    stepTerm xb gb ub db p h = ∑ q ∈ Finset.range 512, term x wg wu wd b s h (512 * j + q) := by
  rw [Finset.sum_range]
  unfold stepTerm term
  refine Finset.sum_congr rfl fun q _ => ?_
  rw [hd q]
  simp only [hx, hg, hu]

/-- The word 0x3F800000 is the number one. -/
theorem ofBits_one_f32 : Ideal.ofBits .f32 0x3F800000#32 = 1 := by
  simp [Ideal.ofBits, Ideal.ieee, -EReal.coe_mul]; norm_num

end Cert.Swiglu

end
-- ==== Proof.RefIsSpec.lean ====
/-
  The reference program's result, read one operation at a time, is the SwiGLU function of its arguments.

  Its two first products are the gate and up pre-activations, sums over the 4096 model features; its `silu` is
  spelt z · (1 / (1 + e^(−z))), which on the extended reals is z · σ(z) with the one-word constant equal to one;
  the last product sums the gated hidden values against the down weight over the 11008 features.
-/
import proofs.«126773_j78786880078279_1_alg».proof.Proof.Gen.ReferenceIdeal.Read
import proofs.«126773_j78786880078279_1_alg».proof.Proof.Spec

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.Read

/-! ## The indices the nested products compose

The last product reads the hidden array at (b, s, i) and the down weight at (h, i); a pre-activation at (b, s, i)
reads the activations at (b, s, k) and its weight at (i, k). Each composed index is the index with those
coordinates, one coordinate at a time. -/

private theorem lidx0 (j : S2x2048x4096.Idx) (i : Fin 11008) (k : Fin 4096) :
    lidx_main_v0 (lidx_main_v4 j i) k = ix3 (j 0) (j 1) k :=
  funext fun a => Fin.ext (by match a with | ⟨0, _⟩ => rfl | ⟨1, _⟩ => rfl | ⟨2, _⟩ => rfl)

private theorem ridx0 (j : S2x2048x4096.Idx) (i : Fin 11008) (k : Fin 4096) :
    ridx_main_v0 (lidx_main_v4 j i) k = ix2 i k :=
  funext fun a => Fin.ext (by match a with | ⟨0, _⟩ => rfl | ⟨1, _⟩ => rfl)

private theorem lidx1 (j : S2x2048x4096.Idx) (i : Fin 11008) (k : Fin 4096) :
    lidx_main_v1 (lidx_main_v4 j i) k = ix3 (j 0) (j 1) k :=
  funext fun a => Fin.ext (by match a with | ⟨0, _⟩ => rfl | ⟨1, _⟩ => rfl | ⟨2, _⟩ => rfl)

private theorem ridx1 (j : S2x2048x4096.Idx) (i : Fin 11008) (k : Fin 4096) :
    ridx_main_v1 (lidx_main_v4 j i) k = ix2 i k :=
  funext fun a => Fin.ext (by match a with | ⟨0, _⟩ => rfl | ⟨1, _⟩ => rfl)

private theorem ridx4 (j : S2x2048x4096.Idx) (i : Fin 11008) : ridx_main_v4 j i = ix2 (j 2) i :=
  funext fun a => Fin.ext (by match a with | ⟨0, _⟩ => rfl | ⟨1, _⟩ => rfl)

/-- At (b, s, h) the reference's result is the sum over the 11008 features i of its hidden value at (b, s, i) times
    Wd (h, i). The hidden value is (g · (1 / (1 + e^(−g)))) · u with g = Σ_k x (b, s, k) · Wg (i, k) and
    u = Σ_k x (b, s, k) · Wu (i, k), the two ones being the word 0x3F800000; and 1 / (1 + e^(−g)) is σ(g) by
    definition, so the hidden value is the gated value of g and u, term by term of the outer sum. -/
theorem result_eq (x0 : (⟨S2x2048x4096, .f32⟩ : BufTy).Contents (Elt Ideal)) (x1 x2 : (⟨S11008x4096, .f32⟩ : BufTy).Contents (Elt Ideal))
    (x3 : (⟨S4096x11008, .f32⟩ : BufTy).Contents (Elt Ideal)) :
    val_main_v4 (F := Ideal) x0 x1 x2 x3 = Cert.Swiglu.swiglu x0 x1 x2 x3 := by
  funext j
  rw [val_main_v4_apply]
  unfold Cert.Swiglu.swiglu
  refine Finset.sum_congr rfl fun i _ => ?_
  -- the hidden value at (b, s, i), one operation at a time, down to the two sums over the model features
  rw [val_main_v3_apply, val_main_v2_apply, val_main_call0_v5_apply, val_main_call0_v4_apply,
    val_main_call0_cst_0_apply, val_main_call0_v3_apply, val_main_call0_v2_apply, val_main_call0_cst_apply,
    val_main_call0_v1_apply, val_main_call0_v0_apply, val_main_v0_apply, val_main_v1_apply]
  -- on the extended reals the operations are ·, +, −, e^ and the quotient, and the constant is one
  simp only [lidx0, ridx0, lidx1, ridx1, ridx4, Ideal.mulf_def, Ideal.addf_def, Ideal.hostDivf_def,
    Ideal.hostUnary_exp_def, Ideal.hostNegf_def, Ideal.negf_def, Ideal.ofBits_def, Cert.Swiglu.ofBits_one_f32]
  -- (g · (1 / (1 + e^(−g)))) · u is the gated value, σ being that quotient by definition
  unfold Cert.Swiglu.gated Ideal.logistic
  rfl

end Cert.ReferenceIdeal.RefValue

end
-- ==== Proof.Pieces.lean ====
/-
  What one run of the kernel body leaves behind, case by case, as the body's own arithmetic.

  The accumulator tile is reset to zero at the first feature block of a row tile and then increased by the block's
  contribution; at the last feature block the finished tile is also copied to the output block. So the accumulator
  after a step is the step's update applied to what it held before (to the zero tile at a first block), and the
  output block written at a last block is that same updated accumulator.
-/
import proofs.«126773_j78786880078279_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

/-- The block's offsets: the pair (0, 0) is the zero offset function. -/
theorem hz : (![0, 0] : Fin 2 → Nat) = fun _ => 0 := funext fun a => by fin_cases a <;> rfl

/-- First feature block of a row tile: the accumulator ends at the update of the zero tile. -/
theorem scratch_first (c : Dev nD) (i : grid0.Coords) (arg2 : Memref sig .tc .vmem S256x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S512x4096 .bf16) (harg5 : arg5.IsWhole) (arg6 : Memref sig .tc .vmem S256x4096 .f32) (harg6 : arg6.IsWhole) (arg7 : Memref sig .tc .vmem S256x4096 .f32) (harg7 : arg7.IsWhole) (hc0 : cond0_0 i) (hc1 : ¬cond0_1 i)
    (x0 : Vec F S256x4096 .bf16) (x1 : Vec F S4096x512 .bf16) (x2 : Vec F S4096x512 .bf16) (x3 : Vec F S512x4096 .bf16) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  -- Two stores tile the accumulator, the later one covering it: what is left is the later store's value.
  -- That value reads the accumulator back after the reset, which is the zero tile; every input block is read whole.
  rw [View.canon_cons_unit_zero (S := S256x4096) hz, View.readCov_unit_zero (S := S256x4096) _ hz]
  simp only [View.readAt_eq_ld, harg2.read_unread, harg3.read_unread, harg4.read_unread, harg5.read_unread, View.ld_unit_zero (S := S256x4096) hz, View.ld_unit_zero (S := S4096x512) hz, View.ld_unit_zero (S := S512x4096) hz]

/-- A feature block in the middle: the accumulator ends at the update of what it held. -/
theorem scratch_mid (c : Dev nD) (i : grid0.Coords) (arg2 : Memref sig .tc .vmem S256x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S512x4096 .bf16) (harg5 : arg5.IsWhole) (arg6 : Memref sig .tc .vmem S256x4096 .f32) (harg6 : arg6.IsWhole) (arg7 : Memref sig .tc .vmem S256x4096 .f32) (harg7 : arg7.IsWhole) (hc0 : ¬cond0_0 i) (hc1 : ¬cond0_1 i)
    (x0 : Vec F S256x4096 .bf16) (x1 : Vec F S4096x512 .bf16) (x2 : Vec F S4096x512 .bf16) (x3 : Vec F S512x4096 .bf16) (xs0 : Vec F S256x4096 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  -- One store covers the accumulator, so what is left is that store's value;
  -- each of its operands is a whole block read at offset zero, the accumulator's being what it held before.
  rw [View.canon_unit_zero (S := S256x4096) hz]
  simp only [View.readAt_eq_ld, harg2.read_unread, harg3.read_unread, harg4.read_unread, harg5.read_unread, harg7.read_unread, View.ld_unit_zero (S := S256x4096) hz, View.ld_unit_zero (S := S4096x512) hz, View.ld_unit_zero (S := S512x4096) hz]

/-- The last feature block: the accumulator ends at the update of what it held, -/
theorem scratch_last (c : Dev nD) (i : grid0.Coords) (arg2 : Memref sig .tc .vmem S256x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S512x4096 .bf16) (harg5 : arg5.IsWhole) (arg6 : Memref sig .tc .vmem S256x4096 .f32) (harg6 : arg6.IsWhole) (arg7 : Memref sig .tc .vmem S256x4096 .f32) (harg7 : arg7.IsWhole) (hc0 : ¬cond0_0 i) (hc1 : cond0_1 i)
    (x0 : Vec F S256x4096 .bf16) (x1 : Vec F S4096x512 .bf16) (x2 : Vec F S4096x512 .bf16) (x3 : Vec F S512x4096 .bf16) (xs0 : Vec F S256x4096 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  -- One store covers the accumulator, so what is left is that store's value;
  -- each of its operands is a whole block read at offset zero, the accumulator's being what it held before.
  rw [View.canon_unit_zero (S := S256x4096) hz]
  simp only [View.readAt_eq_ld, harg2.read_unread, harg3.read_unread, harg4.read_unread, harg5.read_unread, harg7.read_unread, View.ld_unit_zero (S := S256x4096) hz, View.ld_unit_zero (S := S4096x512) hz, View.ld_unit_zero (S := S512x4096) hz]

/-- and the output block is written with that same updated accumulator. -/
theorem out_last (c : Dev nD) (i : grid0.Coords) (arg2 : Memref sig .tc .vmem S256x4096 .bf16) (harg2 : arg2.IsWhole) (arg3 : Memref sig .tc .vmem S4096x512 .bf16) (harg3 : arg3.IsWhole) (arg4 : Memref sig .tc .vmem S4096x512 .bf16) (harg4 : arg4.IsWhole) (arg5 : Memref sig .tc .vmem S512x4096 .bf16) (harg5 : arg5.IsWhole) (arg6 : Memref sig .tc .vmem S256x4096 .f32) (harg6 : arg6.IsWhole) (arg7 : Memref sig .tc .vmem S256x4096 .f32) (harg7 : arg7.IsWhole) (hc0 : ¬cond0_0 i) (hc1 : cond0_1 i)
    (x0 : Vec F S256x4096 .bf16) (x1 : Vec F S4096x512 .bf16) (x2 : Vec F S4096x512 .bf16) (x3 : Vec F S512x4096 .bf16) (xs0 : Vec F S256x4096 .f32) :
    out0_C_4 c i arg2 harg2 arg3 harg3 arg4 harg4 arg5 harg5 arg6 harg6 arg7 harg7 hc0 hc1 x0 x1 x2 x3 xs0 = k0_pay2 x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  -- One store covers the output block, and its value is the accumulator read back after the update's store,
  -- which covers the accumulator: so it is the update itself, every operand a whole block read at offset zero.
  rw [View.canon_unit_zero (S := S256x4096) hz]
  simp only [View.readCov_unit_zero (S := S256x4096) _ hz, View.readAt_eq_ld, harg2.read_unread, harg3.read_unread, harg4.read_unread, harg5.read_unread, harg7.read_unread, View.ld_unit_zero (S := S256x4096) hz, View.ld_unit_zero (S := S4096x512) hz, View.ld_unit_zero (S := S512x4096) hz]

end Cert.KernelIdeal.Pieces

end
-- ==== Proof.Payload.lean ====
/-
  The body's arithmetic read at one entry, on the extended reals.

  The update of an accumulator tile `acc` by a feature block is, at row p and column h,
    acc (p, h) + Σ_q ( (g q · σ(g q)) · u q ) · d (q, h),   g q = Σ_k x (p, k) · wg (k, q),   u q = Σ_k x (p, k) · wu (k, q),
  the three block products being plain sums over the contracted axis (a product into a zero accumulator adds
  nothing), the changes of float format the identity, and the reset tile is zero everywhere.
-/
import proofs.«126773_j78786880078279_1_alg».proof.Proof.Gen.KernelIdeal.Skeleton
import proofs.«126773_j78786880078279_1_alg».proof.Proof.Spec
import Idealize.ShloMosaic.PureOps.Ideal.Laws
import Idealize.ShloMosaic.Lib.ValueIdx
import Idealize.ShloMosaic.Lib.Pipeline.Value

noncomputable section

namespace Cert.KernelIdeal.Payload

open Idealize.ShloMosaic Idealize.ShloMosaic.TcCoe Idealize.ShloMosaic.ValueIdx
open Cert.KernelIdeal Cert.KernelIdeal.Gen

/-- Left operand's axis 0 is the output's row. -/
private theorem lhs_in_0 (i : S256x512.Idx) (q : dot_S256x4096_S4096x512_S256x512_1_0_0_1_n_n.contr.Idx) :
    (dot_S256x4096_S4096x512_S256x512_1_0_0_1_n_n.lhsIdx i q 0).val = (i 0).val := by
  unfold DotDims.lhsIdx
  rw [dif_neg (show ¬(0 : Fin S256x4096.rank) ∈ dot_S256x4096_S4096x512_S256x512_1_0_0_1_n_n.lhsBatch by decide), dif_pos (show (0 : Fin S256x4096.rank) ∈ dot_S256x4096_S4096x512_S256x512_1_0_0_1_n_n.lhsNonContracting by decide)]
  rfl
/-- Left operand's axis 1 is the contracted one. -/
private theorem lhs_in_1 (i : S256x512.Idx) (q : dot_S256x4096_S4096x512_S256x512_1_0_0_1_n_n.contr.Idx) :
    (dot_S256x4096_S4096x512_S256x512_1_0_0_1_n_n.lhsIdx i q 1).val = (q ⟨0, by decide⟩).val :=
  dot_S256x4096_S4096x512_S256x512_1_0_0_1_n_n.lhsIdx_val_of_single rfl i q
/-- Right operand's axis 0 is the contracted one. -/
private theorem rhs_in_0 (i : S256x512.Idx) (q : dot_S256x4096_S4096x512_S256x512_1_0_0_1_n_n.contr.Idx) :
    (dot_S256x4096_S4096x512_S256x512_1_0_0_1_n_n.rhsIdx i q 0).val = (q ⟨0, by decide⟩).val :=
  dot_S256x4096_S4096x512_S256x512_1_0_0_1_n_n.rhsIdx_val_of_single rfl i q
/-- Right operand's axis 1 is the output's column. -/
private theorem rhs_in_1 (i : S256x512.Idx) (q : dot_S256x4096_S4096x512_S256x512_1_0_0_1_n_n.contr.Idx) :
    (dot_S256x4096_S4096x512_S256x512_1_0_0_1_n_n.rhsIdx i q 1).val = (i 1).val := by
  unfold DotDims.rhsIdx
  rw [dif_neg (show ¬(1 : Fin S4096x512.rank) ∈ dot_S256x4096_S4096x512_S256x512_1_0_0_1_n_n.rhsBatch by decide), dif_pos (show (1 : Fin S4096x512.rank) ∈ dot_S256x4096_S4096x512_S256x512_1_0_0_1_n_n.rhsNonContracting by decide)]
  rfl

/-- A 256 × 4096 by 4096 × 512 block product into a zero accumulator, at row p and column q: the sum over the 4096 contracted entries of the products. -/
private theorem matmul_in_apply (lhs : FVec Ideal S256x4096 .bf16) (rhs : FVec Ideal S4096x512 .bf16) (p : Fin 256) (q : Fin 512) :
    matmul (F := Ideal) dot_S256x4096_S4096x512_S256x512_1_0_0_1_n_n none lhs rhs (constant (F := Ideal) S256x512 .f32 0x00000000#32) (ix2 p q)
      = ∑ k : Fin 4096, lhs (ix2 p k) * rhs (ix2 k q) := by
  simp only [matmul]
  rw [Ideal.matmul_constant_zero_apply, ← Equiv.sum_comp (ValueIdx.contrEquiv1 dot_S256x4096_S4096x512_S256x512_1_0_0_1_n_n 4096 rfl rfl).symm]
  refine Finset.sum_congr rfl fun k _ => ?_
  have hk := ValueIdx.contrEquiv1_symm_val dot_S256x4096_S4096x512_S256x512_1_0_0_1_n_n 4096 rfl rfl k
  have el : dot_S256x4096_S4096x512_S256x512_1_0_0_1_n_n.lhsIdx (ix2 p q) ((ValueIdx.contrEquiv1 dot_S256x4096_S4096x512_S256x512_1_0_0_1_n_n 4096 rfl rfl).symm k) = ix2 p k := funext fun a => Fin.ext (by
    match a with
    | ⟨0, _⟩ => exact lhs_in_0 _ _
    | ⟨1, _⟩ => exact (lhs_in_1 _ _).trans hk)
  have er : dot_S256x4096_S4096x512_S256x512_1_0_0_1_n_n.rhsIdx (ix2 p q) ((ValueIdx.contrEquiv1 dot_S256x4096_S4096x512_S256x512_1_0_0_1_n_n 4096 rfl rfl).symm k) = ix2 k q := funext fun a => Fin.ext (by
    match a with
    | ⟨0, _⟩ => exact (rhs_in_0 _ _).trans hk
    | ⟨1, _⟩ => exact rhs_in_1 _ _)
  rw [el, er]

/-- Left operand's axis 0 is the output's row. -/
private theorem lhs_out_0 (i : S256x4096.Idx) (q : dot_S256x512_S512x4096_S256x4096_1_0_0_1_n_n.contr.Idx) :
    (dot_S256x512_S512x4096_S256x4096_1_0_0_1_n_n.lhsIdx i q 0).val = (i 0).val := by
  unfold DotDims.lhsIdx
  rw [dif_neg (show ¬(0 : Fin S256x512.rank) ∈ dot_S256x512_S512x4096_S256x4096_1_0_0_1_n_n.lhsBatch by decide), dif_pos (show (0 : Fin S256x512.rank) ∈ dot_S256x512_S512x4096_S256x4096_1_0_0_1_n_n.lhsNonContracting by decide)]
  rfl
/-- Left operand's axis 1 is the contracted one. -/
private theorem lhs_out_1 (i : S256x4096.Idx) (q : dot_S256x512_S512x4096_S256x4096_1_0_0_1_n_n.contr.Idx) :
    (dot_S256x512_S512x4096_S256x4096_1_0_0_1_n_n.lhsIdx i q 1).val = (q ⟨0, by decide⟩).val :=
  dot_S256x512_S512x4096_S256x4096_1_0_0_1_n_n.lhsIdx_val_of_single rfl i q
/-- Right operand's axis 0 is the contracted one. -/
private theorem rhs_out_0 (i : S256x4096.Idx) (q : dot_S256x512_S512x4096_S256x4096_1_0_0_1_n_n.contr.Idx) :
    (dot_S256x512_S512x4096_S256x4096_1_0_0_1_n_n.rhsIdx i q 0).val = (q ⟨0, by decide⟩).val :=
  dot_S256x512_S512x4096_S256x4096_1_0_0_1_n_n.rhsIdx_val_of_single rfl i q
/-- Right operand's axis 1 is the output's column. -/
private theorem rhs_out_1 (i : S256x4096.Idx) (q : dot_S256x512_S512x4096_S256x4096_1_0_0_1_n_n.contr.Idx) :
    (dot_S256x512_S512x4096_S256x4096_1_0_0_1_n_n.rhsIdx i q 1).val = (i 1).val := by
  unfold DotDims.rhsIdx
  rw [dif_neg (show ¬(1 : Fin S512x4096.rank) ∈ dot_S256x512_S512x4096_S256x4096_1_0_0_1_n_n.rhsBatch by decide), dif_pos (show (1 : Fin S512x4096.rank) ∈ dot_S256x512_S512x4096_S256x4096_1_0_0_1_n_n.rhsNonContracting by decide)]
  rfl

/-- A 256 × 512 by 512 × 4096 block product into a zero accumulator, at row p and column h: the sum over the 512 contracted entries of the products. -/
private theorem matmul_out_apply (lhs : FVec Ideal S256x512 .bf16) (rhs : FVec Ideal S512x4096 .bf16) (p : Fin 256) (q : Fin 4096) :
    matmul (F := Ideal) dot_S256x512_S512x4096_S256x4096_1_0_0_1_n_n none lhs rhs (constant (F := Ideal) S256x4096 .f32 0x00000000#32) (ix2 p q)
      = ∑ k : Fin 512, lhs (ix2 p k) * rhs (ix2 k q) := by
  simp only [matmul]
  rw [Ideal.matmul_constant_zero_apply, ← Equiv.sum_comp (ValueIdx.contrEquiv1 dot_S256x512_S512x4096_S256x4096_1_0_0_1_n_n 512 rfl rfl).symm]
  refine Finset.sum_congr rfl fun k _ => ?_
  have hk := ValueIdx.contrEquiv1_symm_val dot_S256x512_S512x4096_S256x4096_1_0_0_1_n_n 512 rfl rfl k
  have el : dot_S256x512_S512x4096_S256x4096_1_0_0_1_n_n.lhsIdx (ix2 p q) ((ValueIdx.contrEquiv1 dot_S256x512_S512x4096_S256x4096_1_0_0_1_n_n 512 rfl rfl).symm k) = ix2 p k := funext fun a => Fin.ext (by
    match a with
    | ⟨0, _⟩ => exact lhs_out_0 _ _
    | ⟨1, _⟩ => exact (lhs_out_1 _ _).trans hk)
  have er : dot_S256x512_S512x4096_S256x4096_1_0_0_1_n_n.rhsIdx (ix2 p q) ((ValueIdx.contrEquiv1 dot_S256x512_S512x4096_S256x4096_1_0_0_1_n_n 512 rfl rfl).symm k) = ix2 k q := funext fun a => Fin.ext (by
    match a with
    | ⟨0, _⟩ => exact (rhs_out_0 _ _).trans hk
    | ⟨1, _⟩ => exact rhs_out_1 _ _)
  rw [el, er]

/-- The reset tile is zero at every entry. -/
theorem reset_apply (p : Fin 256) (h : Fin 4096) : k0_pay1 (F := Ideal) (ix2 p h) = 0 := by
  -- the reshape to the same shape is the identity, a splat reads its scalar, and the zero word is the number 0
  unfold k0_pay1
  rw [shapeCast_self]
  exact Ideal.ofBits_zero_f32

/-- The update at an entry: what the accumulator held there plus the feature block's contribution. -/
theorem update_apply (x0 : Vec Ideal S256x4096 .bf16) (x1 x2 : Vec Ideal S4096x512 .bf16) (x3 : Vec Ideal S512x4096 .bf16)
    (acc : Vec Ideal S256x4096 .f32) (p : Fin 256) (h : Fin 4096) :
    k0_pay2 (F := Ideal) x0 x1 x2 x3 acc (ix2 p h) = acc (ix2 p h) + Cert.Swiglu.stepTerm x0 x1 x2 x3 p h := by
  unfold k0_pay2
  -- the outer reshape to the same shape is the identity, and a sum of tiles is read entry by entry
  refine (congrFun (shapeCast_self _ _) (ix2 p h)).trans ?_
  refine (addf_apply _ _ _).trans ?_
  refine congrArg (acc (ix2 p h) + ·) ?_
  -- the last product is the sum over the block's 512 features q of (hidden value at (p, q)) · (down entry at (q, h))
  refine (matmul_out_apply _ _ p h).trans ?_
  unfold Cert.Swiglu.stepTerm
  refine Finset.sum_congr rfl fun q _ => ?_
  -- the reshapes of the four operands are identities
  have e0 : shapeCast S256x4096 x0 shapeCasts_S256x4096_S256x4096 = x0 := shapeCast_self _ _
  have e1 : shapeCast S4096x512 x1 shapeCasts_S4096x512_S4096x512 = x1 := shapeCast_self _ _
  have e2 : shapeCast S4096x512 x2 shapeCasts_S4096x512_S4096x512 = x2 := shapeCast_self _ _
  have e3 : shapeCast S512x4096 x3 shapeCasts_S512x4096_S512x4096 = x3 := shapeCast_self _ _
  -- the gate and up pre-activations at (p, q) are the sums over the 4096 model features
  have hg : matmul (F := Ideal) dot_S256x4096_S4096x512_S256x512_1_0_0_1_n_n none (shapeCast S256x4096 x0 shapeCasts_S256x4096_S256x4096)
      (shapeCast S4096x512 x1 shapeCasts_S4096x512_S4096x512) (constant (F := Ideal) S256x512 .f32 0x00000000#32) (ix2 p q)
        = ∑ k : Fin 4096, x0 (ix2 p k) * x1 (ix2 k q) :=
    (matmul_in_apply _ _ p q).trans (Finset.sum_congr rfl fun k _ => congrArg₂ (· * ·) (congrFun e0 _) (congrFun e1 _))
  have hu : matmul (F := Ideal) dot_S256x4096_S4096x512_S256x512_1_0_0_1_n_n none (shapeCast S256x4096 x0 shapeCasts_S256x4096_S256x4096)
      (shapeCast S4096x512 x2 shapeCasts_S4096x512_S4096x512) (constant (F := Ideal) S256x512 .f32 0x00000000#32) (ix2 p q)
        = ∑ k : Fin 4096, x0 (ix2 p k) * x2 (ix2 k q) :=
    (matmul_in_apply _ _ p q).trans (Finset.sum_congr rfl fun k _ => congrArg₂ (· * ·) (congrFun e0 _) (congrFun e2 _))
  -- the change of float format is the identity on the extended reals, and the products and the logistic act entrywise:
  -- the hidden value at (p, q) is (g · σ(g)) · u
  refine congrArg₂ (· * ·) ?_ (congrFun e3 (ix2 q h))
  unfold Cert.Swiglu.gated
  rw [← hg, ← hu]
  rfl

end Cert.KernelIdeal.Payload

end
-- ==== Proof.HostArrays.lean ====
/-
  The four arrays the kernel region reads, as the host lines before it leave them, read at one entry.

  The activations are flattened to 4096 rows, row r being token (r / 2048, r % 2048); the gate and up weights are
  transposed and padded on the feature axis from 11008 to 11264 columns with zeros; the down weight is transposed
  and padded with 256 zero rows. The conversions to the shorter float format change nothing on the extended
  reals, and the padding value, the integer zero converted, is zero. So each padded array, read at a feature
  index below 11264, is the corresponding weight continued by zero.
-/
import proofs.«126773_j78786880078279_1_alg».proof.Proof.Gen.KernelIdeal.Frame.Runs
import proofs.«126773_j78786880078279_1_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.HostArrays

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-! ## Each array as a term of the argument arrays

The host lines before the region write every buffer once, so what a buffer holds on entry is the composition of the
operations on the path from the arguments to it. -/

/-- The activations on entry: the argument reshaped to 4096 rows, then converted. -/
theorem acts_term (c : Dev nD) :
    (V m c main_v1 : S4096x4096.Idx → EReal)
      = (truncf .bf16 (shapeCast S4096x4096 (m ((c : Thread nD τ).loc main_arg0) : FVec Ideal S2x2048x4096 .f32)
            shapeCasts_S2x2048x4096_S4096x4096 : FVec Ideal S4096x4096 .f32) bitsLt_bf16_f32 : FVec Ideal S4096x4096 .bf16) := by
  dsimp only [Gen.V, Gen.V0]
  simp only [Gen.hostOps0, Gen.hostOps0_1, Gen.hostOps0_2, Gen.hostOps0_3, Gen.hostOps0_4, Gen.hostOps0_5, List.flatten_cons,
    List.flatten_nil, List.append_nil, List.cons_append, List.nil_append]
  after_results
  rfl

/-- The gate weight on entry: the argument transposed, converted, then padded by 256 columns of the converted integer
    zero. -/
theorem gate_term (c : Dev nD) :
    (V m c main_v8 : S4096x11264.Idx → EReal)
      = (pad S4096x11264 ![0, 0] ![0, 256] ![0, 0]
          (truncf .bf16 (transpose S4096x11008 [1, 0] (m ((c : Thread nD τ).loc main_arg1) : FVec Ideal S11008x4096 .f32)
            transposes_S11008x4096_S4096x11008_1_0 : FVec Ideal S4096x11008 .f32) bitsLt_bf16_f32 : FVec Ideal S4096x11008 .bf16)
          (sitofp .bf16 (constantI S_ 32 0#32) : FVec Ideal S_ .bf16)
          pads_S4096x11008_S4096x11264_000_02560 h_S_ : FVec Ideal S4096x11264 .bf16) := by
  dsimp only [Gen.V, Gen.V0]
  simp only [Gen.hostOps0, Gen.hostOps0_1, Gen.hostOps0_2, Gen.hostOps0_3, Gen.hostOps0_4, Gen.hostOps0_5, List.flatten_cons,
    List.flatten_nil, List.append_nil, List.cons_append, List.nil_append]
  after_results
  rfl

/-- The up weight on entry: the same composition on the third argument. -/
theorem up_term (c : Dev nD) :
    (V m c main_v9 : S4096x11264.Idx → EReal)
      = (pad S4096x11264 ![0, 0] ![0, 256] ![0, 0]
          (truncf .bf16 (transpose S4096x11008 [1, 0] (m ((c : Thread nD τ).loc main_arg2) : FVec Ideal S11008x4096 .f32)
            transposes_S11008x4096_S4096x11008_1_0 : FVec Ideal S4096x11008 .f32) bitsLt_bf16_f32 : FVec Ideal S4096x11008 .bf16)
          (sitofp .bf16 (constantI S_ 32 0#32) : FVec Ideal S_ .bf16)
          pads_S4096x11008_S4096x11264_000_02560 h_S_ : FVec Ideal S4096x11264 .bf16) := by
  dsimp only [Gen.V, Gen.V0]
  simp only [Gen.hostOps0, Gen.hostOps0_1, Gen.hostOps0_2, Gen.hostOps0_3, Gen.hostOps0_4, Gen.hostOps0_5, List.flatten_cons,
    List.flatten_nil, List.append_nil, List.cons_append, List.nil_append]
  after_results
  rfl

/-- The down weight on entry: the argument transposed, converted, then padded by 256 rows of the converted integer
    zero. -/
theorem down_term (c : Dev nD) :
    (V m c main_v10 : S11264x4096.Idx → EReal)
      = (pad S11264x4096 ![0, 0] ![256, 0] ![0, 0]
          (truncf .bf16 (transpose S11008x4096 [1, 0] (m ((c : Thread nD τ).loc main_arg3) : FVec Ideal S4096x11008 .f32)
            transposes_S4096x11008_S11008x4096_1_0 : FVec Ideal S11008x4096 .f32) bitsLt_bf16_f32 : FVec Ideal S11008x4096 .bf16)
          (sitofp .bf16 (constantI S_ 32 0#32) : FVec Ideal S_ .bf16)
          pads_S11008x4096_S11264x4096_02560_000 h_S_ : FVec Ideal S11264x4096 .bf16) := by
  dsimp only [Gen.V, Gen.V0]
  simp only [Gen.hostOps0, Gen.hostOps0_1, Gen.hostOps0_2, Gen.hostOps0_3, Gen.hostOps0_4, Gen.hostOps0_5, List.flatten_cons,
    List.flatten_nil, List.append_nil, List.cons_append, List.nil_append]
  after_results
  rfl

/-! ## The pieces read at an index -/

/-- The padding value: the integer zero, converted to a float, is zero. -/
private theorem padValue_eq_zero :
    (sitofp .bf16 (constantI S_ 32 0#32) : FVec Ideal S_ .bf16) (Shape.Idx.first h_S_) = 0 := by
  rw [sitofp_apply]
  exact sitofp_zero

/-- A weight of 11008 × 4096 entries transposed, converted and padded by 256 zero columns, read at model feature k and
    feature i: the weight's entry (i, k) when i is a feature, zero past the last feature. -/
private theorem padCols_apply (w : FVec Ideal S11008x4096 .f32) (k : Fin 4096) (i : Fin 11264) :
    (pad S4096x11264 ![0, 0] ![0, 256] ![0, 0]
        (truncf .bf16 (transpose S4096x11008 [1, 0] w transposes_S11008x4096_S4096x11008_1_0 : FVec Ideal S4096x11008 .f32)
          bitsLt_bf16_f32 : FVec Ideal S4096x11008 .bf16)
        (sitofp .bf16 (constantI S_ 32 0#32) : FVec Ideal S_ .bf16)
        pads_S4096x11008_S4096x11264_000_02560 h_S_ : FVec Ideal S4096x11264 .bf16) (ix2 k i)
      = Cert.Swiglu.colW (w : S11008x4096.Idx → EReal) k i.val := by
  unfold Cert.Swiglu.colW
  by_cases hi : i.val < 11008
  · -- a feature: on both axes the index is the operand's own (no low padding, no interior padding)
    rw [dif_pos hi,
      pad_apply_of_inside ![0, 0] ![0, 256] ![0, 0] _ _ pads_S4096x11008_S4096x11264_000_02560 h_S_ (ix2 k i)
        (ix2 k ⟨i.val, hi⟩) (fun a => match a with
          | ⟨0, _⟩ => by show k.val = 0 + k.val * (0 + 1); omega
          | ⟨1, _⟩ => by show i.val = 0 + i.val * (0 + 1); omega),
      truncf_apply, transpose_ix2_apply]
  · -- past the last feature: the column index is beyond the operand's 11008 columns
    rw [dif_neg hi,
      pad_apply_of_not_inside (s := S4096x11008) (t := S4096x11264) ![0, 0] ![0, 256] ![0, 0] _ _
        pads_S4096x11008_S4096x11264_000_02560 h_S_ (ix2 k i) (1 : Fin 2)
        (by show ¬(0 ≤ i.val ∧ (i.val - 0) % (0 + 1) = 0 ∧ (i.val - 0) / (0 + 1) < 11008); omega),
      padValue_eq_zero]

/-! ## The four arrays -/

/-- The flattened activations: row r, feature k is token (r / 2048, r % 2048)'s feature k. -/
theorem acts_apply (c : Dev nD) (r : Fin 4096) (k : Fin 4096) :
    (V m c main_v1 : S4096x4096.Idx → EReal) (ix2 r k)
      = (m ((c : Thread nD τ).loc main_arg0) : S2x2048x4096.Idx → EReal)
          (ix3 ⟨r.val / 2048, by have := r.isLt; omega⟩ ⟨r.val % 2048, Nat.mod_lt _ (by decide)⟩ k) := by
  rw [acts_term m c, truncf_apply]
  -- the two indices have the same row-major position: (r / 2048 · 2048 + r % 2048) · 4096 + k = r · 4096 + k
  refine shapeCast_apply (s := S2x2048x4096) (t := S4096x4096) _ _ _ _ ?_
  show (S2x2048x4096.rowMajor (ix3 ⟨r.val / 2048, by have := r.isLt; omega⟩ ⟨r.val % 2048, Nat.mod_lt _ (by decide)⟩ k)).val
      = (S4096x4096.rowMajor (ix2 r k)).val
  rw [Shape.rowMajor_val_three, Shape.rowMajor_val_two]
  show (r.val / 2048 * 2048 + r.val % 2048) * 4096 + k.val = r.val * 4096 + k.val
  rw [Nat.div_add_mod' r.val 2048]

/-- The transposed, padded gate weight: model feature k, feature i. -/
theorem gate_apply (c : Dev nD) (k : Fin 4096) (i : Fin 11264) :
    (V m c main_v8 : S4096x11264.Idx → EReal) (ix2 k i)
      = Cert.Swiglu.colW (m ((c : Thread nD τ).loc main_arg1) : S11008x4096.Idx → EReal) k i.val := by
  rw [gate_term m c]
  exact padCols_apply _ k i

/-- The transposed, padded up weight. -/
theorem up_apply (c : Dev nD) (k : Fin 4096) (i : Fin 11264) :
    (V m c main_v9 : S4096x11264.Idx → EReal) (ix2 k i)
      = Cert.Swiglu.colW (m ((c : Thread nD τ).loc main_arg2) : S11008x4096.Idx → EReal) k i.val := by
  rw [up_term m c]
  exact padCols_apply _ k i

/-- The transposed, padded down weight: feature i, output column h. -/
theorem down_apply (c : Dev nD) (i : Fin 11264) (h : Fin 4096) :
    (V m c main_v10 : S11264x4096.Idx → EReal) (ix2 i h)
      = Cert.Swiglu.rowD (m ((c : Thread nD τ).loc main_arg3) : S4096x11008.Idx → EReal) i.val h := by
  rw [down_term m c]
  unfold Cert.Swiglu.rowD
  by_cases hi : i.val < 11008
  · -- a feature: on both axes the index is the operand's own
    rw [dif_pos hi,
      pad_apply_of_inside ![0, 0] ![256, 0] ![0, 0] _ _ pads_S11008x4096_S11264x4096_02560_000 h_S_ (ix2 i h)
        (ix2 ⟨i.val, hi⟩ h) (fun a => match a with
          | ⟨0, _⟩ => by show i.val = 0 + i.val * (0 + 1); omega
          | ⟨1, _⟩ => by show h.val = 0 + h.val * (0 + 1); omega),
      truncf_apply, transpose_ix2_apply]
  · -- past the last feature: the row index is beyond the operand's 11008 rows
    rw [dif_neg hi,
      pad_apply_of_not_inside (s := S11008x4096) (t := S11264x4096) ![0, 0] ![256, 0] ![0, 0] _ _
        pads_S11008x4096_S11264x4096_02560_000 h_S_ (ix2 i h) (0 : Fin 2)
        (by show ¬(0 ≤ i.val ∧ (i.val - 0) % (0 + 1) = 0 ∧ (i.val - 0) / (0 + 1) < 11008); omega),
      padValue_eq_zero]

end Cert.KernelIdeal.HostArrays

end
-- ==== Proof.Blocks.lean ====
/-
  Where each window's block sits in its array.

  The grid walks the 16 row tiles of 256 rows and, inside each, the 22 feature blocks of 512 features: point t is
  row tile t / 22 and feature block t % 22. The activations' and the output's block is row tile t / 22 (all 4096
  columns); the transposed gate and up weights' block is column block t % 22 (all 4096 rows); the transposed down
  weight's block is row block t % 22. An element of a block sits in the array, on each axis, at the block index
  times the block's size plus its own coordinate.
-/
import proofs.«126773_j78786880078279_1_alg».proof.Proof.Gen.KernelIdeal.Frame.Runs
import Idealize.ShloMosaic.Lib.ValueIdx
import Idealize.ShloMosaic.Lib.Pipeline.Value

noncomputable section

namespace Cert.KernelIdeal.Blocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- The printed index maps over the grid: row tile t / 22, feature block t % 22. -/
theorem idx_facts : ∀ t : Fin cfg0.N,
    win0_0.index t (0 : Fin 2) = t.val / 22 ∧ win0_0.index t (1 : Fin 2) = 0
    ∧ win0_1.index t (0 : Fin 2) = 0 ∧ win0_1.index t (1 : Fin 2) = t.val % 22
    ∧ win0_2.index t (0 : Fin 2) = 0 ∧ win0_2.index t (1 : Fin 2) = t.val % 22
    ∧ win0_3.index t (0 : Fin 2) = t.val % 22 ∧ win0_3.index t (1 : Fin 2) = 0
    ∧ win0_4.index t (0 : Fin 2) = t.val / 22 ∧ win0_4.index t (1 : Fin 2) = 0 :=
  (by decide +kernel : ∀ t : Fin grid0.N, _)

theorem lt_N (t : Fin cfg0.N) : t.val < 352 := lt_of_lt_of_eq t.isLt (show cfg0.N = 352 from N_0)

/-- The activations' block at point t: rows 256 · (t / 22) … of the flattened activations. -/
theorem acts_blk (c : Dev nD) (t : Fin cfg0.N) (p : Fin 256) (k : Fin 4096) :
    (iblk m c 0 t : Vec F S256x4096 .bf16) (ix2 p k)
      = (V m c main_v1 : Vec F S4096x4096 .bf16) (ix2 ⟨256 * (t.val / 22) + p.val, by have := lt_N t; omega⟩ k) := by
  obtain ⟨e0, e1, -⟩ := idx_facts t
  unfold iblk
  rw [View.read_apply]
  show V m c main_v1 _ = V m c main_v1 _
  congr 1
  funext a
  apply Fin.ext
  match a with
  | ⟨0, _⟩ => show win0_0.index t (0 : Fin 2) * 256 + 1 * p.val = 256 * (t.val / 22) + p.val; rw [e0]; omega
  | ⟨1, _⟩ => show win0_0.index t (1 : Fin 2) * 4096 + 1 * k.val = k.val; rw [e1]; omega

/-- The transposed gate weight's block at point t: columns 512 · (t % 22) …. -/
theorem gate_blk (c : Dev nD) (t : Fin cfg0.N) (k : Fin 4096) (q : Fin 512) :
    (iblk m c 1 t : Vec F S4096x512 .bf16) (ix2 k q)
      = (V m c main_v8 : Vec F S4096x11264 .bf16) (ix2 k ⟨512 * (t.val % 22) + q.val, by omega⟩) := by
  obtain ⟨-, -, e0, e1, -⟩ := idx_facts t
  unfold iblk
  rw [View.read_apply]
  show V m c main_v8 _ = V m c main_v8 _
  congr 1
  funext a
  apply Fin.ext
  match a with
  | ⟨0, _⟩ => show win0_1.index t (0 : Fin 2) * 4096 + 1 * k.val = k.val; rw [e0]; omega
  | ⟨1, _⟩ => show win0_1.index t (1 : Fin 2) * 512 + 1 * q.val = 512 * (t.val % 22) + q.val; rw [e1]; omega

/-- The transposed up weight's block at point t. -/
theorem up_blk (c : Dev nD) (t : Fin cfg0.N) (k : Fin 4096) (q : Fin 512) :
    (iblk m c 2 t : Vec F S4096x512 .bf16) (ix2 k q)
      = (V m c main_v9 : Vec F S4096x11264 .bf16) (ix2 k ⟨512 * (t.val % 22) + q.val, by omega⟩) := by
  obtain ⟨-, -, -, -, e0, e1, -⟩ := idx_facts t
  unfold iblk
  rw [View.read_apply]
  show V m c main_v9 _ = V m c main_v9 _
  congr 1
  funext a
  apply Fin.ext
  match a with
  | ⟨0, _⟩ => show win0_2.index t (0 : Fin 2) * 4096 + 1 * k.val = k.val; rw [e0]; omega
  | ⟨1, _⟩ => show win0_2.index t (1 : Fin 2) * 512 + 1 * q.val = 512 * (t.val % 22) + q.val; rw [e1]; omega

/-- The transposed down weight's block at point t: rows 512 · (t % 22) …. -/
theorem down_blk (c : Dev nD) (t : Fin cfg0.N) (q : Fin 512) (h : Fin 4096) :
    (iblk m c 3 t : Vec F S512x4096 .bf16) (ix2 q h)
      = (V m c main_v10 : Vec F S11264x4096 .bf16) (ix2 ⟨512 * (t.val % 22) + q.val, by omega⟩ h) := by
  obtain ⟨-, -, -, -, -, -, e0, e1, -⟩ := idx_facts t
  unfold iblk
  rw [View.read_apply]
  show V m c main_v10 _ = V m c main_v10 _
  congr 1
  funext a
  apply Fin.ext
  match a with
  | ⟨0, _⟩ => show win0_3.index t (0 : Fin 2) * 512 + 1 * q.val = 512 * (t.val % 22) + q.val; rw [e0]; omega
  | ⟨1, _⟩ => show win0_3.index t (1 : Fin 2) * 4096 + 1 * h.val = h.val; rw [e1]; omega

end Cert.KernelIdeal.Blocks

end
-- ==== Proof.Accum.lean ====
/-
  The accumulator tile, point by point.

  Inside row tile n / 22 the kernel walks the 22 feature blocks in order. After feature block j = n % 22 the
  accumulator holds, at row p and column h, the sum of the terms of features 0 … 512 · (j + 1) − 1 for the
  flattened row 256 · (n / 22) + p: the first block starts from the zero tile, every later block adds its own
  stretch of 512 terms to what the block before left (the row tile has not changed, the stretch is the next one),
  and a sum over a range cut after 512 · j terms is the two parts added. At the last block, j = 21, the output
  block is written with the accumulator, which then holds all 11264 terms.
-/
import proofs.«126773_j78786880078279_1_alg».proof.Proof.Gen.KernelIdeal.Frame
import proofs.«126773_j78786880078279_1_alg».proof.Proof.Spec
import proofs.«126773_j78786880078279_1_alg».proof.Proof.Pieces
import proofs.«126773_j78786880078279_1_alg».proof.Proof.Payload
import proofs.«126773_j78786880078279_1_alg».proof.Proof.HostArrays
import proofs.«126773_j78786880078279_1_alg».proof.Proof.Blocks

noncomputable section

namespace Cert.KernelIdeal.Accum

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The four argument arrays as the program was launched with them, as functions into the extended reals. -/
abbrev argX (c : Dev nD) : Cert.Swiglu.SX.Idx → EReal := m ((c : Thread nD τ).loc main_arg0)
abbrev argG (c : Dev nD) : Cert.Swiglu.SW.Idx → EReal := m ((c : Thread nD τ).loc main_arg1)
abbrev argU (c : Dev nD) : Cert.Swiglu.SW.Idx → EReal := m ((c : Thread nD τ).loc main_arg2)
abbrev argD (c : Dev nD) : Cert.Swiglu.SD.Idx → EReal := m ((c : Thread nD τ).loc main_arg3)

/-- Feature `i`'s term for the flattened row `r`, which is token (r / 2048, r % 2048), and output column `h`
    (zero for a row number past the last: no such row is ever asked for). -/
def rowTerm (c : Dev nD) (r : ℕ) (h : Fin 4096) (i : ℕ) : EReal :=
  if hr : r < 4096 then
    Cert.Swiglu.term (argX m c) (argG m c) (argU m c) (argD m c) ⟨r / 2048, by omega⟩ ⟨r % 2048, Nat.mod_lt _ (by decide)⟩ h i
  else 0

/-- A sum over the first 512 · (j + 1) naturals is the sum over the first 512 · j and the next stretch of 512. -/
theorem range_step (f : ℕ → EReal) (j : ℕ) :
    ∑ i ∈ Finset.range (512 * (j + 1)), f i = ∑ i ∈ Finset.range (512 * j), f i + ∑ q ∈ Finset.range 512, f (512 * j + q) := by
  rw [Nat.mul_succ, Finset.sum_range_add]

/-- What the step at point t adds at (p, h): the stretch of terms of feature block t % 22, for row 256 · (t / 22) + p. -/
theorem step_eq (c : Dev nD) (t : Fin cfg0.N) (p : Fin 256) (h : Fin 4096) :
    Cert.Swiglu.stepTerm (iblk m c 0 t) (iblk m c 1 t) (iblk m c 2 t) (iblk m c 3 t) p h
      = ∑ q ∈ Finset.range 512, rowTerm m c (256 * (t.val / 22) + p.val) h (512 * (t.val % 22) + q) := by
  have hr : 256 * (t.val / 22) + p.val < 4096 := by have := Blocks.lt_N t; omega
  refine (Cert.Swiglu.stepTerm_eq_range (argX m c) (argG m c) (argU m c) (argD m c)
    ⟨(256 * (t.val / 22) + p.val) / 2048, by omega⟩ ⟨(256 * (t.val / 22) + p.val) % 2048, Nat.mod_lt _ (by decide)⟩ (t.val % 22)
    (iblk m c 0 t) (iblk m c 1 t) (iblk m c 2 t) (iblk m c 3 t) p h
    (fun k => (Blocks.acts_blk m c t p k).trans (HostArrays.acts_apply m c _ k))
    (fun k q => (Blocks.gate_blk m c t k q).trans (HostArrays.gate_apply m c k _))
    (fun k q => (Blocks.up_blk m c t k q).trans (HostArrays.up_apply m c k _))
    (fun q => (Blocks.down_blk m c t q h).trans (HostArrays.down_apply m c _ h))).trans ?_
  refine Finset.sum_congr rfl fun q _ => ?_
  unfold rowTerm
  rw [dif_pos hr]

/-- THE ACCUMULATION: after point n the accumulator holds, at (p, h), the terms of the first 512 · (n % 22 + 1)
    features for row 256 · (n / 22) + p. -/
theorem acc_eq (c : Dev nD) : ∀ (n : ℕ) (hn : n < cfg0.N) (p : Fin 256) (h : Fin 4096),
    ((outsAt0 m c n hn).2 : Vec Ideal S256x4096 .f32) (ix2 p h)
      = ∑ i ∈ Finset.range (512 * (n % 22 + 1)), rowTerm m c (256 * (n / 22) + p.val) h i := by
  intro n
  induction n using Nat.strong_induction_on with
  | _ n ih =>
    intro hn p h
    rw [range_step]
    by_cases h0 : n % 22 = 0
    · -- the first feature block of a row tile: the zero tile, then this block's stretch
      have h1 : ¬n % 22 = 21 := by omega
      rw [outsAt0_A m c ⟨n, hn⟩ h0 h1]
      dsimp only
      refine (congrFun (Pieces.scratch_first (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _)
        ((hcond0_0 ⟨n, hn⟩).mpr h0) (fun hh => h1 ((hcond0_1 ⟨n, hn⟩).mp hh)) (iblk m c 0 ⟨n, hn⟩) (iblk m c 1 ⟨n, hn⟩) (iblk m c 2 ⟨n, hn⟩) (iblk m c 3 ⟨n, hn⟩)) (ix2 p h)).trans ?_
      refine (Payload.update_apply (iblk m c 0 ⟨n, hn⟩) (iblk m c 1 ⟨n, hn⟩) (iblk m c 2 ⟨n, hn⟩) (iblk m c 3 ⟨n, hn⟩) (k0_pay1 (F := Ideal)) p h).trans ?_
      rw [Payload.reset_apply, step_eq m c ⟨n, hn⟩ p h, h0, Nat.mul_zero, Finset.range_zero, Finset.sum_empty]
    · -- a later feature block: what the block before left, then this block's stretch
      have hpos : 0 < n := by rcases n with _ | n; · exact absurd rfl h0
                              · omega
      have hlt : n - 1 < cfg0.N := Nat.lt_of_le_of_lt (Nat.sub_le _ _) hn
      have e1 : (n - 1) / 22 = n / 22 := by omega
      have e2 : (n - 1) % 22 + 1 = n % 22 := by omega
      have prev := ih (n - 1) (by omega) hlt p h
      rw [e1, e2] at prev
      by_cases h1 : n % 22 = 21
      · rw [outsAt0_C m c ⟨n, hn⟩ h0 h1]
        dsimp only
        refine (congrFun (Pieces.scratch_last (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _)
          (fun hh => h0 ((hcond0_0 ⟨n, hn⟩).mp hh)) ((hcond0_1 ⟨n, hn⟩).mpr h1) (iblk m c 0 ⟨n, hn⟩) (iblk m c 1 ⟨n, hn⟩) (iblk m c 2 ⟨n, hn⟩) (iblk m c 3 ⟨n, hn⟩)
          (outsAt0 m c (n - 1) hlt).2) (ix2 p h)).trans ?_
        refine (Payload.update_apply (iblk m c 0 ⟨n, hn⟩) (iblk m c 1 ⟨n, hn⟩) (iblk m c 2 ⟨n, hn⟩) (iblk m c 3 ⟨n, hn⟩) (outsAt0 m c (n - 1) hlt).2 p h).trans ?_
        rw [prev, step_eq m c ⟨n, hn⟩ p h]
      · rw [outsAt0_B m c ⟨n, hn⟩ h0 h1]
        dsimp only
        refine (congrFun (Pieces.scratch_mid (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _)
          (fun hh => h0 ((hcond0_0 ⟨n, hn⟩).mp hh)) (fun hh => h1 ((hcond0_1 ⟨n, hn⟩).mp hh)) (iblk m c 0 ⟨n, hn⟩) (iblk m c 1 ⟨n, hn⟩) (iblk m c 2 ⟨n, hn⟩) (iblk m c 3 ⟨n, hn⟩)
          (outsAt0 m c (n - 1) hlt).2) (ix2 p h)).trans ?_
        refine (Payload.update_apply (iblk m c 0 ⟨n, hn⟩) (iblk m c 1 ⟨n, hn⟩) (iblk m c 2 ⟨n, hn⟩) (iblk m c 3 ⟨n, hn⟩) (outsAt0 m c (n - 1) hlt).2 p h).trans ?_
        rw [prev, step_eq m c ⟨n, hn⟩ p h]

/-- At the last feature block of a row tile the output block is written with the accumulator. -/
theorem out_eq_acc (c : Dev nD) (t : Fin cfg0.N) (h0 : ¬t.val % 22 = 0) (h1 : t.val % 22 = 21) :
    (outsAt0 m c t.val t.isLt).1 = (outsAt0 m c t.val t.isLt).2 := by
  rw [outsAt0_C m c t h0 h1]
  dsimp only
  exact (Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
      (fun hh => h0 ((hcond0_0 t).mp hh)) ((hcond0_1 t).mpr h1) (iblk m c 0 t) (iblk m c 1 t) (iblk m c 2 t) (iblk m c 3 t)
      (outsAt0 m c (t.val - 1) (Nat.lt_of_le_of_lt (Nat.sub_le _ _) t.isLt)).2).trans
    (Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _)
      (fun hh => h0 ((hcond0_0 t).mp hh)) ((hcond0_1 t).mpr h1) (iblk m c 0 t) (iblk m c 1 t) (iblk m c 2 t) (iblk m c 3 t)
      (outsAt0 m c (t.val - 1) (Nat.lt_of_le_of_lt (Nat.sub_le _ _) t.isLt)).2).symm

/-- So the block written back at the last feature block of row tile t / 22 holds, at (p, h), all 11264 terms of row
    256 · (t / 22) + p. -/
theorem out_eq (c : Dev nD) (t : Fin cfg0.N) (h1 : t.val % 22 = 21) (p : Fin 256) (h : Fin 4096) :
    ((outsAt0 m c t.val t.isLt).1 : Vec Ideal S256x4096 .f32) (ix2 p h)
      = ∑ i ∈ Finset.range 11264, rowTerm m c (256 * (t.val / 22) + p.val) h i := by
  rw [out_eq_acc m c t (by omega) h1, acc_eq m c t.val t.isLt p h, h1]

end Cert.KernelIdeal.Accum

end
-- ==== Proof.Final.lean ====
/-
  The kernel's result array, and the program's result after the last host line.

  The output array [4096, 4096] is written back once per row tile, at the tile's last feature block, with the
  accumulator, which then holds all 11264 terms of each of its rows: so the array ends holding, at row r and column
  h, the sum of the terms of row r. The 16 written blocks are the 16 row tiles, which cover the array. The last
  host line reshapes [4096, 4096] to [2, 2048, 4096]: token (b, s) is row 2048 · b + s, whose terms are token (b, s)'s,
  and their sum over the padded range of features is the SwiGLU function.
-/
import proofs.«126773_j78786880078279_1_alg».proof.Proof.Accum
import Idealize.ShloMosaic.Lib.StableHlo.Run

noncomputable section

namespace Cert.KernelIdeal.Final

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- All 11264 terms of flattened row r at column h. -/
def rowSum (c : Dev nD) (r : ℕ) (h : Fin 4096) : EReal := ∑ i ∈ Finset.range 11264, Accum.rowTerm m c r h i

/-- What the output array ends holding: at (r, h) the terms of row r summed. -/
def tile (c : Dev nD) : Buf (Elt Ideal) ((c : Thread nD τ).loc main_v11) :=
  fun (j : S4096x4096.Idx) => rowSum m c (j 0).val (j 1)

/-- THE WRITE-BACK at the last feature block of row tile t / 22 writes that tile of it. -/
theorem flushed_eq (c : Dev nD) (t : Fin cfg0.N) (hf : (cfg0.win 4).flush t = true) :
    (dats m 0 c).flushed 4 t = ((cfg0.win 4).blk t).view.read (Elt Ideal) (tile m c) := by
  have h1 : t.val % 22 = 21 := (flush0_4 t).mp hf
  obtain ⟨-, -, -, -, -, -, -, -, e0, e1⟩ := Blocks.idx_facts t
  show (cfg0.win 4).cut (grid0.coords t) ((dats m 0 c).after 4 t) = _
  rw [after0_4]
  funext y
  obtain ⟨p, h, rfl⟩ : ∃ (p : Fin 256) (h : Fin 4096), y = ix2 p h := ⟨y 0, y 1, eq_ix2 y⟩
  rw [View.read_apply]
  refine (Accum.out_eq m c t h1 p h).trans ?_
  show rowSum m c (256 * (t.val / 22) + p.val) h
    = rowSum m c ((((cfg0.win 4).blk t).view.emb (ix2 p h)) 0).val ((((cfg0.win 4).blk t).view.emb (ix2 p h)) 1)
  have r0 : ((((cfg0.win 4).blk t).view.emb (ix2 p h)) 0).val = 256 * (t.val / 22) + p.val := by
    show win0_4.index t (0 : Fin 2) * 256 + 1 * p.val = _
    rw [e0]; omega
  have r1 : (((cfg0.win 4).blk t).view.emb (ix2 p h)) 1 = h := Fin.ext (by
    show win0_4.index t (1 : Fin 2) * 4096 + 1 * h.val = h.val
    rw [e1]; omega)
  exact congrArg₂ (rowSum m c) r0.symm r1.symm

/-- An index of the array is in point t's block iff each coordinate is in the block's range on its axis. -/
theorem mem_blk (t : Fin cfg0.N) (i : S4096x4096.Idx) :
    i ∈ ((cfg0.win 4).blk t).view.set
      ↔ ∀ a : Fin 2, win0_4.index t a * S256x4096.size a ≤ (i a).val ∧ (i a).val < win0_4.index t a * S256x4096.size a + S256x4096.size a := by
  show i ∈ ((View.whole main_v11).slice (win0_4.rect t)).set ↔ _
  rw [View.set_slice_whole, Rect.mem_set_unit]
  exact Iff.rfl

/-- Every row is in the row tile written back at that tile's last feature block. -/
theorem cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  have hN : cfg0.N = 352 := N_0
  have hlt : 22 * ((i 0).val / 256) + 21 < cfg0.N := by omega
  refine ⟨⟨22 * ((i 0).val / 256) + 21, hlt⟩, (flush0_4 _).mpr (by show (22 * ((i 0).val / 256) + 21) % 22 = 21; omega), ?_⟩
  obtain ⟨-, -, -, -, -, -, -, -, e0, e1⟩ := Blocks.idx_facts ⟨22 * ((i 0).val / 256) + 21, hlt⟩
  have e0' : win0_4.index ⟨22 * ((i 0).val / 256) + 21, hlt⟩ (0 : Fin 2) = (22 * ((i 0).val / 256) + 21) / 22 := e0
  rw [mem_blk]
  intro a
  match a with
  | ⟨0, _⟩ =>
    show win0_4.index ⟨22 * ((i 0).val / 256) + 21, hlt⟩ (0 : Fin 2) * 256 ≤ (i 0).val
      ∧ (i 0).val < win0_4.index ⟨22 * ((i 0).val / 256) + 21, hlt⟩ (0 : Fin 2) * 256 + 256
    rw [e0']; omega
  | ⟨1, _⟩ =>
    show win0_4.index ⟨22 * ((i 0).val / 256) + 21, hlt⟩ (1 : Fin 2) * 4096 ≤ (i 1).val
      ∧ (i 1).val < win0_4.index ⟨22 * ((i 0).val / 256) + 21, hlt⟩ (1 : Fin 2) * 4096 + 4096
    rw [e1]; omega

/-- THE OUTPUT ARRAY after the run. -/
theorem final (c : Dev nD) : (dats m 0 c).arrAt 4 cfg0.N = tile m c :=
  (dats m 0 c).arrAt_eq_of_cover 4 (tile m c) (flushed_eq m c) cover

/-- The program's result after the last host line: the output array reshaped to [2, 2048, 4096]. -/
theorem tail_eq (c : Dev nD) :
    Pipeline.afterTail₀ cfgs (dats m) 0 (V0 m) [hostOps1] c main_v12
      = (shapeCast S2x2048x4096 (tile m c : FVec Ideal S4096x4096 .f32) shapeCasts_S4096x4096_S2x2048x4096 : FVec Ideal S2x2048x4096 .f32) := by
  have hw : Pipeline.withArrays (cfgs 0).spec c (V0 m c) (fun w => (dats m 0 c).arrAt w (cfgs 0).N) (Proc.devRef .tc main_v11)
      = tile m c :=
    (Pipeline.withArrays_arr spec0 launch0.win.arr_inj c _ _ 4).trans (final m c)
  unfold Pipeline.afterTail₀
  show StableHlo.after hostOps1 _ (Proc.devRef .tc main_v12) = _
  after_results
  funext i
  exact congrFun (congrArg (fun a : FVec Ideal S4096x4096 .f32 => shapeCast S2x2048x4096 a shapeCasts_S4096x4096_S2x2048x4096) hw) i

/-- Token (b, s) is row 2048 · b + s of the output array, and that row's terms are the token's: the result at
    (b, s, h) is the SwiGLU function of the argument arrays. -/
theorem result_eq (c : Dev nD) :
    (shapeCast S2x2048x4096 (tile m c : FVec Ideal S4096x4096 .f32) shapeCasts_S4096x4096_S2x2048x4096 : FVec Ideal S2x2048x4096 .f32)
      = Cert.Swiglu.swiglu (Accum.argX m c) (Accum.argG m c) (Accum.argU m c) (Accum.argD m c) := by
  funext j
  obtain ⟨b, s, h, rfl⟩ : ∃ (b : Fin 2) (s : Fin 2048) (h : Fin 4096), j = ix3 b s h := ⟨j 0, j 1, j 2, eq_ix3 j⟩
  have hr : 2048 * b.val + s.val < 4096 := by have := b.isLt; have := s.isLt; omega
  rw [Cert.Swiglu.swiglu_eq_range]
  -- the reshape keeps the row-major position: (b · 2048 + s) · 4096 + h on both sides
  refine (shapeCast_apply (s := S4096x4096) (t := S2x2048x4096) _ _ (ix3 b s h) (ix2 ⟨2048 * b.val + s.val, hr⟩ h) ?_).trans ?_
  · show (S4096x4096.rowMajor (ix2 ⟨2048 * b.val + s.val, hr⟩ h)).val = (S2x2048x4096.rowMajor (ix3 b s h)).val
    rw [Shape.rowMajor_val_two, Shape.rowMajor_val_three]
    show (2048 * b.val + s.val) * 4096 + h.val = (b.val * 2048 + s.val) * 4096 + h.val
    rw [Nat.mul_comm 2048 b.val]
  · show ∑ i ∈ Finset.range 11264, Accum.rowTerm m c (2048 * b.val + s.val) h i = _
    refine Finset.sum_congr rfl fun i _ => ?_
    unfold Accum.rowTerm
    rw [dif_pos hr]
    have eb : (⟨(2048 * b.val + s.val) / 2048, by omega⟩ : Fin 2) = b := Fin.ext (by show (2048 * b.val + s.val) / 2048 = b.val; have := s.isLt; omega)
    have es : (⟨(2048 * b.val + s.val) % 2048, Nat.mod_lt _ (by decide)⟩ : Fin 2048) = s := Fin.ext (by show (2048 * b.val + s.val) % 2048 = s.val; have := s.isLt; omega)
    rw [eb, es]

/-- THE RUN, READ: the result at the SwiGLU function of the argument arrays, the arguments unchanged. -/
theorem run : θ_run defs (onTc (τ := τ) (main (F := Ideal))) ⟨m, fun _ => 0, ρ⟩ fun r => ∀ c : Dev nD,
      r.2.mem ((c : Thread nD τ).loc main_v12) = Cert.Swiglu.swiglu (Accum.argX m c) (Accum.argG m c) (Accum.argU m c) (Accum.argD m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v12 (Pipeline.mem_restRefs_of main_v12 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.lean ====
/-
  A SwiGLU feed-forward block, blocked and accumulated on the chip, against three plain matrix products.

  Both programs compute, for every token (b, s) and output column h,
    out (b, s, h) = Σ_i ( (g i · σ(g i)) · u i ) · Wd (h, i),   g i = Σ_k x (b, s, k) · Wg (i, k),   u i = Σ_k x (b, s, k) · Wu (i, k),
  with σ(z) = 1 / (1 + e^(−z)), over the 11008 intermediate features i and the 4096 model features k.

  The reference does it in one go: two products, z · (1 / (1 + e^(−z))) entrywise, a product with the up values, a
  last product with the down weight (Proof/RefIsSpec.lean). The kernel flattens the tokens to 4096 rows, transposes
  the three weights, pads the feature axis from 11008 to 11264 = 22 · 512 with zeros, and walks a 16 × 22 grid: for each
  tile of 256 rows it clears an accumulator, adds for each block of 512 features the block's contribution
  Σ_q ((g q · σ(g q)) · u q) · Wd (·, q), and after the last block writes the accumulator out; the result is
  reshaped back to tokens. Read on the extended reals the changes of float format are the identity, a product into
  a zero accumulator is a plain sum, and the chip's logistic is the reference's quotient, so a block's contribution
  is a stretch of 512 of the terms above (Proof/Payload.lean, Proof/HostArrays.lean, Proof/Blocks.lean); the
  accumulator after block j holds the first 512 · (j + 1) terms (Proof/Accum.lean, by induction on the grid point);
  the 16 tiles written cover the result (Proof/Final.lean); and the 256 padded features contribute
  ((g · σ(g)) · u) · 0 = 0 each, whatever g and u are (Proof/Spec.lean). Nothing here needs the inputs to be
  finite: a sum over a range is cut into stretches and zeros are dropped, no more.

  The kernel's idealization rewrote no operation, so there is nothing to preserve; each program's frame is its
  run with the result forgotten.
-/
import proofs.«126773_j78786880078279_1_alg».proof.Defs
import proofs.«126773_j78786880078279_1_alg».proof.Proof.Gen.Kernel
import proofs.«126773_j78786880078279_1_alg».proof.Proof.Gen.Kernel.Skeleton
import proofs.«126773_j78786880078279_1_alg».proof.Proof.Gen.Kernel.Launch
import proofs.«126773_j78786880078279_1_alg».proof.Proof.Gen.Kernel.Points
import proofs.«126773_j78786880078279_1_alg».proof.Proof.Gen.Kernel.Frame
import proofs.«126773_j78786880078279_1_alg».proof.Proof.Gen.KernelIdeal
import proofs.«126773_j78786880078279_1_alg».proof.Proof.Gen.KernelIdeal.Skeleton
import proofs.«126773_j78786880078279_1_alg».proof.Proof.Gen.KernelIdeal.Launch
import proofs.«126773_j78786880078279_1_alg».proof.Proof.Gen.KernelIdeal.Points
import proofs.«126773_j78786880078279_1_alg».proof.Proof.Gen.KernelIdeal.Frame
import proofs.«126773_j78786880078279_1_alg».proof.Proof.Gen.ReferenceIdeal
import proofs.«126773_j78786880078279_1_alg».proof.Proof.Gen.ReferenceIdeal.Run
import proofs.«126773_j78786880078279_1_alg».proof.Proof.Gen.ReferenceIdeal.Read
import proofs.«126773_j78786880078279_1_alg».proof.Proof.Gen.Pre_finite_inputs
import proofs.«126773_j78786880078279_1_alg».proof.Proof.RefIsSpec
import proofs.«126773_j78786880078279_1_alg».proof.Proof.Final
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the four arguments both programs end with the SwiGLU function of those arguments in
    their result: the kernel by its run read back, the reference by its run read one operation at a time. -/
theorem algebraic : Cert.algebraic_KernelIdeal_ReferenceIdeal := by
  intro m ρ m' ρ' _ hagree
  refine ⟨fun c => Cert.Swiglu.swiglu (Cert.KernelIdeal.Accum.argX m c) (Cert.KernelIdeal.Accum.argG m c)
    (Cert.KernelIdeal.Accum.argU m c) (Cert.KernelIdeal.Accum.argD m c), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
